-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_65535" .f32 0x37800080#32 ((1 / 65535 : ℝ) : EReal)
  ∧ IdealRules.named_const.Statement Cert.KernelIdeal.κ "inv_127" .f32 0x3C010204#32 ((1 / 127 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096 : Shape := ⟨1, ![4096]⟩
abbrev S256x4096 : Shape := ⟨2, ![256, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096 32) (main_arg2 : FVec F S256x4096 .f32) (main_arg3 : IVec S4096x4096 32) (main_arg4 : FVec F S4096 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256x4096 .f32 := Host.absf main_arg2
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096 : Shape := ⟨1, ![4096]⟩
abbrev S256x4096 : Shape := ⟨2, ![256, 4096]⟩
abbrev S4096x4096 : Shape := ⟨2, ![4096, 4096]⟩
abbrev S8192x4096 : Shape := ⟨2, ![8192, 4096]⟩
abbrev S1024x512 : Shape := ⟨2, ![1024, 512]⟩
abbrev S1024 : Shape := ⟨1, ![1024]⟩
abbrev S256x512 : Shape := ⟨2, ![256, 512]⟩
abbrev S1024x1024 : Shape := ⟨2, ![1024, 1024]⟩
abbrev S1024x256 : Shape := ⟨2, ![1024, 256]⟩
abbrev S1024x1 : Shape := ⟨2, ![1024, 1]⟩
abbrev S1x1024 : Shape := ⟨2, ![1, 1024]⟩

abbrev nBuf : Space → Nat
  | .hbm => 9
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096, .i32⟩
  | .hbm, ⟨2, _⟩ => ⟨S256x4096, .f32⟩
  | .hbm, ⟨3, _⟩ => ⟨S4096x4096, .i32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S8192x4096, .f32⟩
  | .hbm, ⟨8, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024, .i32⟩
  | .local _ .vmem, ⟨3, _⟩ => ⟨S1024, .i32⟩
  | .local _ .vmem, ⟨4, _⟩ => ⟨S256x512, .f32⟩
  | .local _ .vmem, ⟨5, _⟩ => ⟨S256x512, .f32⟩
  | .local _ .vmem, ⟨6, _⟩ => ⟨S1024x512, .i32⟩
  | .local _ .vmem, ⟨7, _⟩ => ⟨S1024x512, .i32⟩
  | .local _ .vmem, ⟨8, _⟩ => ⟨S1024, .f32⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v47 : BitVec 1 := Scalar.cmpi .eq arg2 c7_i32
  let v48 : BitVec 32 := Scalar.extui v47
  let c0_i32_16 : BitVec 32 := 0#32
  let v49 : BitVec 1 := Scalar.cmpi .ne v48 c0_i32_16
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  iota_S1024x256_d1_w32 : S1024x256.Iotas .tc 32 [1]
  shapeCasts_S1024_S1024x1 : S1024.ShapeCasts S1024x1
  broadcasts_S1024x1_S1024x256 : S1024x1.Broadcasts S1024x256
  natLt_1_32 : 1 < 32
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024_S1x1024 : S1024.ShapeCasts S1x1024
  broadcasts_S1x1024_S1024x1024 : S1x1024.Broadcasts S1024x1024
  shapeCasts_S8192x4096_S4x2048x4096 : S8192x4096.ShapeCasts S4x2048x4096
  dot_S1024x256_S256x512_S1024x512_1_0_0_1_n_n_wf : DotDims.WF S1024x256 S256x512 S1024x512 [1] [0] [0] [1] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S4096.size a
  hwx0_1 : ∀ i : grid0.Coords, EltTy.bits .i32 = 32 ∨ (Rect.block (s := S4096) S1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x4096.size a
  hwx0_2 : ∀ i : grid0.Coords, EltTy.bits .f32 = 32 ∨ (Rect.block (s := S256x4096) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .i32 = 32 ∨ (Rect.block (s := S4096x4096) S1024x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S4096.size a
  hwx0_4 : ∀ i : grid0.Coords, EltTy.bits .f32 = 32 ∨ (Rect.block (s := S4096) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S4096.size a
  hwx0_5 : ∀ i : grid0.Coords, EltTy.bits .f32 = 32 ∨ (Rect.block (s := S4096) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x4096.size a
  hwx0_6 : ∀ i : grid0.Coords, EltTy.bits .f32 = 32 ∨ (Rect.block (s := S8192x4096) S1024x1024.size (cc0_transform_6 i) (hinb0_6 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096 : Shape := ⟨1, ![4096]⟩
abbrev S256x4096 : Shape := ⟨2, ![256, 4096]⟩
abbrev S4096x4096 : Shape := ⟨2, ![4096, 4096]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .i32⟩
  | .hbm, ⟨2, _⟩ => ⟨S256x4096, .f32⟩
  | .hbm, ⟨3, _⟩ => ⟨S4096x4096, .i32⟩
  | .hbm, ⟨4, _⟩ => ⟨S4096, .f32⟩
  | .hbm, ⟨5, _⟩ => ⟨S4096, .f32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096x1, .f32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096x1, .i32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x1, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4x2048x4096, .f32⟩
  | .hbm, ⟨46, _⟩ => ⟨S1x1x4096, .f32⟩
  | .hbm, ⟨47, _⟩ => ⟨S4x2048x4096, .f32⟩
  | .hbm, ⟨48, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256x4096_S4096x1_S4096x4096_1_0_n_n_0_1_14096_wf : GatherDims.WF S256x4096 S4096x1 S4096x4096 [1] [0] [] [0] [] 1 ![1, 4096]
  dot_S4x2048x4096_S4096x4096_S4x2048x4096_2_1_01_0_n_n_wf : DotDims.WF S4x2048x4096 S4096x4096 S4x2048x4096 [2] [1] [0, 1] [0] [] []

variable [Facts₀]

def gather_S256x4096_S4096x1_S4096x4096_1_0_n_n_0_1_14096 : GatherDims S256x4096 S4096x1 S4096x4096 where
  offsetDims := [1]
  collapsedSliceDims := [0]
  operandBatchingDims := []
  startIndicesBatchingDims := []
  startIndexMap := [0]
  indexVectorDim := 1
  sliceSizes := ![1, 4096]
  wf := gather_S256x4096_S4096x1_S4096x4096_1_0_n_n_0_1_14096_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What each control case of the kernel body leaves behind, as pure terms of the blocks it loads.

  The body keeps a running [1024, 1024] accumulator in a scratch buffer. On the first contraction block it clears the
  accumulator and adds that block's partial product; on the later blocks it adds the partial product to what the block
  before left; on the last block it also stores the accumulator plus the bias row into the output block.
-/
import proofs.«408450_j70772471103880_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

theorem hz2 : (![0, 0] : Fin 2 → Nat) = fun _ => 0 := funext fun a => by fin_cases a <;> rfl
theorem hz1 : (![0] : Fin 1 → Nat) = fun _ => 0 := funext fun a => by fin_cases a <;> rfl

/-- A later contraction block (not the first, not the last): the accumulator `xs0` plus this block's partial product. -/
theorem acc_later (c : Dev nD) (i : grid0.Coords) (arg3 : Memref sig .tc .vmem S1024x512 .f32) (harg3 : arg3.IsWhole) (arg4 : Memref sig .tc .vmem S1024 .i32) (harg4 : arg4.IsWhole) (arg5 : Memref sig .tc .vmem S256x512 .f32) (harg5 : arg5.IsWhole) (arg6 : Memref sig .tc .vmem S1024x512 .i32) (harg6 : arg6.IsWhole) (arg7 : Memref sig .tc .vmem S1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : ¬cond0_1 i)
    (x0 : Vec F S1024x512 .f32) (x1 : Vec F S1024 .i32) (x2 : Vec F S256x512 .f32) (x3 : Vec F S1024x512 .i32) (x4 : Vec F S1024 .f32) (x5 : Vec F S1024 .f32) (xs0 : Vec F S1024x1024 .f32) :
    sout0_B_0 c i arg3 harg3 arg4 harg4 arg5 harg5 arg6 harg6 arg7 harg7 arg8 harg8 arg9 harg9 arg10 harg10 hc0 hc1 x0 x1 x2 x3 x4 x5 xs0 = k0_pay1 (k0_pay4 x1 x2 x3 x4) x0 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg10.read_unread, View.ld_unit_zero (S := S1024x512) hz2, View.ld_unit_zero (S := S256x512) hz2, View.ld_unit_zero (S := S1024x1024) hz2, View.ld_unit_zero (S := S1024) hz1]

/-- The last contraction block leaves the same in the accumulator. -/
theorem acc_last (c : Dev nD) (i : grid0.Coords) (arg3 : Memref sig .tc .vmem S1024x512 .f32) (harg3 : arg3.IsWhole) (arg4 : Memref sig .tc .vmem S1024 .i32) (harg4 : arg4.IsWhole) (arg5 : Memref sig .tc .vmem S256x512 .f32) (harg5 : arg5.IsWhole) (arg6 : Memref sig .tc .vmem S1024x512 .i32) (harg6 : arg6.IsWhole) (arg7 : Memref sig .tc .vmem S1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec F S1024x512 .f32) (x1 : Vec F S1024 .i32) (x2 : Vec F S256x512 .f32) (x3 : Vec F S1024x512 .i32) (x4 : Vec F S1024 .f32) (x5 : Vec F S1024 .f32) (xs0 : Vec F S1024x1024 .f32) :
    sout0_C_0 c i arg3 harg3 arg4 harg4 arg5 harg5 arg6 harg6 arg7 harg7 arg8 harg8 arg9 harg9 arg10 harg10 hc0 hc1 x0 x1 x2 x3 x4 x5 xs0 = k0_pay1 (k0_pay4 x1 x2 x3 x4) x0 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg10.read_unread, View.ld_unit_zero (S := S1024x512) hz2, View.ld_unit_zero (S := S256x512) hz2, View.ld_unit_zero (S := S1024x1024) hz2, View.ld_unit_zero (S := S1024) hz1]

/-- And stores into the output block that accumulator plus the bias row. -/
theorem out_last (c : Dev nD) (i : grid0.Coords) (arg3 : Memref sig .tc .vmem S1024x512 .f32) (harg3 : arg3.IsWhole) (arg4 : Memref sig .tc .vmem S1024 .i32) (harg4 : arg4.IsWhole) (arg5 : Memref sig .tc .vmem S256x512 .f32) (harg5 : arg5.IsWhole) (arg6 : Memref sig .tc .vmem S1024x512 .i32) (harg6 : arg6.IsWhole) (arg7 : Memref sig .tc .vmem S1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec F S1024x512 .f32) (x1 : Vec F S1024 .i32) (x2 : Vec F S256x512 .f32) (x3 : Vec F S1024x512 .i32) (x4 : Vec F S1024 .f32) (x5 : Vec F S1024 .f32) (xs0 : Vec F S1024x1024 .f32) :
    out0_C_6 c i arg3 harg3 arg4 harg4 arg5 harg5 arg6 harg6 arg7 harg7 arg8 harg8 arg9 harg9 arg10 harg10 hc0 hc1 x0 x1 x2 x3 x4 x5 xs0 = k0_pay2 (k0_pay1 (k0_pay4 x1 x2 x3 x4) x0 xs0) x5 := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg10.read_unread, View.readCov_unit_zero (S := S1024x1024) _ hz2, View.ld_unit_zero (S := S1024x512) hz2, View.ld_unit_zero (S := S256x512) hz2, View.ld_unit_zero (S := S1024x1024) hz2, View.ld_unit_zero (S := S1024) hz1]

/-- The first contraction block: the cleared accumulator plus this block's partial product. -/
theorem acc_first (c : Dev nD) (i : grid0.Coords) (arg3 : Memref sig .tc .vmem S1024x512 .f32) (harg3 : arg3.IsWhole) (arg4 : Memref sig .tc .vmem S1024 .i32) (harg4 : arg4.IsWhole) (arg5 : Memref sig .tc .vmem S256x512 .f32) (harg5 : arg5.IsWhole) (arg6 : Memref sig .tc .vmem S1024x512 .i32) (harg6 : arg6.IsWhole) (arg7 : Memref sig .tc .vmem S1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024x1024 .f32) (harg10 : arg10.IsWhole) (hc0 : cond0_0 i) (hc1 : ¬cond0_1 i)
    (x0 : Vec F S1024x512 .f32) (x1 : Vec F S1024 .i32) (x2 : Vec F S256x512 .f32) (x3 : Vec F S1024x512 .i32) (x4 : Vec F S1024 .f32) (x5 : Vec F S1024 .f32) :
    sout0_A_0 c i arg3 harg3 arg4 harg4 arg5 harg5 arg6 harg6 arg7 harg7 arg8 harg8 arg9 harg9 arg10 harg10 hc0 hc1 x0 x1 x2 x3 x4 x5 = k0_pay1 (k0_pay4 x1 x2 x3 x4) x0 (k0_pay3 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1024) hz2]
  simp only [View.readAt_eq_ld, harg3.read_unread, harg4.read_unread, harg5.read_unread, harg6.read_unread, harg7.read_unread, harg8.read_unread, View.readCov_unit_zero (S := S1024x1024) _ hz2, View.ld_unit_zero (S := S1024x512) hz2, View.ld_unit_zero (S := S256x512) hz2, View.ld_unit_zero (S := S1024) hz1]

end Cert.KernelIdeal.Pieces

end
-- ==== Proof.Decode.lean ====
/-
  The decoded weight of one output channel and the blocked dot product, as plain functions on words and extended reals.

  A 32-bit code word carries a table row in its low byte and a 16-bit radius in the next two bytes. The decoded
  weight entry is  table[row] · (radius · 1/65535)  +  (q − 128) · 1/127 · scale,  with q the residual word read as a
  signed integer. The kernel finds  table[row]  as a product with a one-hot row; the reference gathers it and writes the
  two scalings as quotients. Both are this one value on every extended real: the laws used are commutativity of the
  product, x · 1 = x, 0 · x = 0 and  x / y = x · (1/y)  for a real y ≠ 0, none of which needs a finite operand.
-/
import Idealize.ShloMosaic.Lib.ValueIdx
import Idealize.ShloMosaic.Lib.KernelVsHost
import Idealize.ShloMosaic.PureOps.Ideal.Laws

noncomputable section

open scoped BigOperators

namespace Cert.Decode

open Idealize.ShloMosaic Idealize.ShloMosaic.ValueIdx

/-! ## The low byte names a table row -/

theorem low_byte_lt (c : BitVec 32) : (IntOp.andi c 255#32).toNat < 256 := by
  show (c &&& 255#32).toNat < 256
  rw [BitVec.toNat_and]
  exact Nat.lt_succ_of_le Nat.and_le_right

/-- The table row a code word selects: its low byte. -/
def row (c : BitVec 32) : Fin 256 := ⟨(IntOp.andi c 255#32).toNat, low_byte_lt c⟩

/-- The low byte read as a signed integer is the same number: bit 31 is clear. -/
theorem low_byte_toInt (c : BitVec 32) : (IntOp.andi c 255#32).toInt = ((row c).val : ℤ) := by
  have h := low_byte_lt c
  rw [BitVec.toInt_eq_toNat_of_lt (by omega)]
  rfl

/-- It is not negative, so jnp's wrap of negative indices leaves it alone. -/
theorem low_byte_not_neg (c : BitVec 32) : IntOp.cmpi .slt (IntOp.andi c 255#32) 0#32 = 0#1 := by
  have h := low_byte_toInt c
  simp only [IntOp.cmpi, BitVec.slt, BitVec.toInt_zero]
  rw [h]
  have : ¬ ((row c).val : ℤ) < 0 := by omega
  simp [this]

/-- The one-hot entry the kernel builds at column `j`: the comparison bit widened to a word and converted. -/
def hot (c : BitVec 32) (j : Fin 256) : EReal :=
  FloatOps.sitofp (F := Ideal) .f32 ((IntOp.cmpi .eq (IntOp.andi c 255#32) (BitVec.ofNat 32 j.val)).setWidth 32)

theorem hot_eq (c : BitVec 32) (j : Fin 256) : hot c j = if j = row c then 1 else 0 := by
  unfold hot
  show (((((IntOp.cmpi .eq (IntOp.andi c 255#32) (BitVec.ofNat 32 j.val)).setWidth 32).toInt : ℤ) : ℝ) : EReal) = _
  rw [toInt_setWidth_bit]
  by_cases h : j = row c
  · subst h
    have e : IntOp.cmpi .eq (IntOp.andi c 255#32) (BitVec.ofNat 32 (row c).val) = 1#1 := by
      simp [IntOp.cmpi, row]
    rw [e, if_pos rfl]; simp
  · have e : IntOp.cmpi .eq (IntOp.andi c 255#32) (BitVec.ofNat 32 j.val) = 0#1 := by
      have hne : ¬ IntOp.andi c 255#32 = BitVec.ofNat 32 j.val := by
        intro heq
        apply h
        apply Fin.ext
        have := congrArg BitVec.toNat heq
        rw [BitVec.toNat_ofNat, Nat.mod_eq_of_lt (by have := j.isLt; omega)] at this
        exact this.symm
      have hb : (IntOp.andi c 255#32 == BitVec.ofNat 32 j.val) = false := beq_eq_false_iff_ne.mpr hne
      simp only [IntOp.cmpi, hb]
      rfl
    rw [e, if_neg h]; simp

/-- A product with the one-hot row picks the table's entry at the selected row. -/
theorem hot_sum (c : BitVec 32) (b : Fin 256 → EReal) : ∑ j : Fin 256, hot c j * b j = b (row c) := by
  rw [Finset.sum_eq_single (row c)]
  · rw [hot_eq, if_pos rfl, one_mul]
  · intro j _ hj; rw [hot_eq, if_neg hj, zero_mul]
  · intro h; exact absurd (Finset.mem_univ _) h

/-! ## The radius and the decoded weight -/

/-- The radius field: bits 8 to 23, as the kernel's vector unit extracts them. -/
def radiusWord (c : BitVec 32) : BitVec 32 := IntOp.andi (IntOp.shrsi .vector c 8#32) 65535#32

/-- The host extracts the same word. -/
theorem radiusWord_host (c : BitVec 32) : IntOp.andi (IntOp.shrsi .host c 8#32) 65535#32 = radiusWord c := by
  unfold radiusWord; rw [shrsi_unit .host .vector]

/-- The decoded weight entry, in the order the kernel computes it. `o128` is the offset both programs subtract
    (the same word on both sides, never evaluated). -/
def weight (c : BitVec 32) (b : Fin 256 → EReal) (q : BitVec 32) (s o128 : EReal) : EReal :=
  b (row c) * ((((radiusWord c).toInt : ℝ) : EReal) * ((1 / 65535 : ℝ) : EReal))
    + ((((q.toInt : ℝ) : EReal) - o128) * ((1 / 127 : ℝ) : EReal)) * s

/-- The reference's spelling — the radius divided by 65535 and multiplied by 1, times the gathered entry; the scale
    times the residual divided by 127 — is the same value. -/
theorem weight_of_quotients (c : BitVec 32) (b : Fin 256 → EReal) (q : BitVec 32) (s o128 : EReal) :
    (Ideal.div (((radiusWord c).toInt : ℝ) : EReal) ((65535 : ℝ) : EReal) * ((1 : ℝ) : EReal)) * b (row c)
      + s * Ideal.div ((((q.toInt : ℝ) : EReal)) - o128) ((127 : ℝ) : EReal)
    = weight c b q s o128 := by
  unfold weight
  rw [Ideal.div_coe (by norm_num : (65535 : ℝ) ≠ 0), Ideal.div_coe (by norm_num : (127 : ℝ) ≠ 0),
    EReal.coe_one, mul_one, mul_comm _ (b (row c)), mul_comm s]

/-! ## A sum over 4096 columns, in 8 blocks of 512 -/

/-- Column `512·k + j`, wrapped so that it is defined for every natural `k`; for `k < 8` nothing wraps. -/
def col (k : ℕ) (j : Fin 512) : Fin 4096 := ⟨(512 * k + j.val) % 4096, Nat.mod_lt _ (by norm_num)⟩

theorem col_val (k : ℕ) (hk : k < 8) (j : Fin 512) : (col k j).val = 512 * k + j.val := by
  unfold col; show (512 * k + j.val) % 4096 = _
  exact Nat.mod_eq_of_lt (by have := j.isLt; omega)

/-- The whole sum is the sum of the eight block sums. -/
theorem sum_blocks (f : Fin 4096 → EReal) :
    ∑ i : Fin 4096, f i = ∑ k ∈ Finset.range 8, ∑ j : Fin 512, f (col k j) := by
  rw [Finset.sum_range (fun k => ∑ j : Fin 512, f (col k j))]
  have e := (Equiv.sum_comp (finProdFinEquiv (m := 8) (n := 512)) f).symm
  rw [Fintype.sum_prod_type] at e
  refine e.trans (Finset.sum_congr rfl fun k _ => Finset.sum_congr rfl fun j _ => congrArg f (Fin.ext ?_))
  rw [col_val k.val k.isLt j]
  show j.val + 512 * k.val = _
  omega

end Cert.Decode

end
-- ==== Proof.Payloads.lean ====
/-
  The body's arithmetic read at one entry, over the extended reals.

  The decode block: entry (n, i) of the [1024, 512] weight block is the decoded weight of channel n at column i — the
  one-hot product picks the table row, the radius and the scale are laid along the rows. The partial product adds, to
  the accumulator's entry (p, q), the sum over the block's 512 columns of x[p, j] · w[q, j]. The epilogue adds the bias
  entry of column q.
-/
import proofs.«408450_j70772471103880_1_alg».proof.Proof.Gen.KernelIdeal.Skeleton
import proofs.«408450_j70772471103880_1_alg».proof.Proof.Decode
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators

namespace Cert.KernelIdeal.Payloads

open Cert.KernelIdeal Cert.KernelIdeal.Gen Idealize.ShloMosaic Idealize.ShloMosaic.ValueIdx

/-! ## The two named constants -/

theorem inv_65535 : Named.named (F := Ideal) Cert.KernelIdeal.κ "inv_65535" (φ := .f32) 0x37800080#32 = ((1 / 65535 : ℝ) : EReal) :=
  IdealRules.named_const.ideal_named_scalar _ _ _ _ rfl

theorem inv_127 : Named.named (F := Ideal) Cert.KernelIdeal.κ "inv_127" (φ := .f32) 0x3C010204#32 = ((1 / 127 : ℝ) : EReal) :=
  IdealRules.named_const.ideal_named_scalar _ _ _ _ rfl

/-! ## A vector laid along the rows of a matrix: [a] → [a, 1] → [a, b] -/

theorem alongRows_apply {α : Type} {a b : ℕ} (ha : a ≠ 1) (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (n : Fin a) (i : Fin b) :
    broadcastTo ⟨2, ![a, b]⟩ (shapeCast ⟨2, ![a, 1]⟩ v h1) h2 (ix2 n i) = v (ix1 n) := by
  refine (broadcastTo_apply _ h2 (ix2 n i) (ix2 n (0 : Fin 1)) (fun d => ?_)).trans ?_
  · match d with
    | ⟨0, _⟩ => show n.val = if a = 1 then 0 else n.val; rw [if_neg ha]
    | ⟨1, _⟩ => show 0 = if (1 : ℕ) = 1 then 0 else i.val; rw [if_pos rfl]
  · refine shapeCast_apply v h1 (ix2 n (0 : Fin 1)) (ix1 n) ?_
    rw [Shape.rowMajor_val_one, Shape.rowMajor_val_two]
    show n.val = n.val * 1 + 0
    omega

/-! ## The one-hot product -/

theorem lhs_hot_0 (j : S1024x512.Idx) (q : dot_S1024x256_S256x512_S1024x512_1_0_0_1_n_n.contr.Idx) :
    (dot_S1024x256_S256x512_S1024x512_1_0_0_1_n_n.lhsIdx j q 0).val = (j 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs_hot_1 (j : S1024x512.Idx) (q : dot_S1024x256_S256x512_S1024x512_1_0_0_1_n_n.contr.Idx) :
    (dot_S1024x256_S256x512_S1024x512_1_0_0_1_n_n.lhsIdx j q 1).val = (q ⟨0, by decide⟩).val :=
  dot_S1024x256_S256x512_S1024x512_1_0_0_1_n_n.lhsIdx_val_of_single rfl j q
theorem rhs_hot_0 (j : S1024x512.Idx) (q : dot_S1024x256_S256x512_S1024x512_1_0_0_1_n_n.contr.Idx) :
    (dot_S1024x256_S256x512_S1024x512_1_0_0_1_n_n.rhsIdx j q 0).val = (q ⟨0, by decide⟩).val :=
  dot_S1024x256_S256x512_S1024x512_1_0_0_1_n_n.rhsIdx_val_of_single rfl j q
theorem rhs_hot_1 (j : S1024x512.Idx) (q : dot_S1024x256_S256x512_S1024x512_1_0_0_1_n_n.contr.Idx) :
    (dot_S1024x256_S256x512_S1024x512_1_0_0_1_n_n.rhsIdx j q 1).val = (j 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- A [1024, 256] by [256, 512] product into the zero block, at (n, i): the sum over the 256 rows of the table block. -/
theorem hotProduct_apply (l : FVec Ideal S1024x256 .bf16) (r : FVec Ideal S256x512 .bf16) (n : Fin 1024) (i : Fin 512) :
    matmul dot_S1024x256_S256x512_S1024x512_1_0_0_1_n_n none l r (constant S1024x512 .f32 0x00000000#32) (ix2 n i)
      = ∑ k : Fin 256, l (ix2 n k) * r (ix2 k i) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 n i) ((contrEquiv1 dot_S1024x256_S256x512_S1024x512_1_0_0_1_n_n 256 rfl rfl).symm k) = ix2 n k := funext fun a => Fin.ext (by
    match a with
    | ⟨0, _⟩ => exact lhs_hot_0 _ _
    | ⟨1, _⟩ => exact (lhs_hot_1 _ _).trans hk)
  have er : dot_S1024x256_S256x512_S1024x512_1_0_0_1_n_n.rhsIdx (ix2 n i) ((contrEquiv1 dot_S1024x256_S256x512_S1024x512_1_0_0_1_n_n 256 rfl rfl).symm k) = ix2 k i := funext fun a => Fin.ext (by
    match a with
    | ⟨0, _⟩ => exact (rhs_hot_0 _ _).trans hk
    | ⟨1, _⟩ => exact rhs_hot_1 _ _)
  rw [el, er]

/-! ## The partial product -/

theorem lhs_dot_0 (j : S1024x1024.Idx) (q : dot_S1024x512_S1024x512_S1024x1024_1_1_0_0_n_n.contr.Idx) :
    (dot_S1024x512_S1024x512_S1024x1024_1_1_0_0_n_n.lhsIdx j q 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_dot_1 (j : S1024x1024.Idx) (q : dot_S1024x512_S1024x512_S1024x1024_1_1_0_0_n_n.contr.Idx) :
    (dot_S1024x512_S1024x512_S1024x1024_1_1_0_0_n_n.lhsIdx j q 1).val = (q ⟨0, by decide⟩).val :=
  dot_S1024x512_S1024x512_S1024x1024_1_1_0_0_n_n.lhsIdx_val_of_single rfl j q
theorem rhs_dot_0 (j : S1024x1024.Idx) (q : dot_S1024x512_S1024x512_S1024x1024_1_1_0_0_n_n.contr.Idx) :
    (dot_S1024x512_S1024x512_S1024x1024_1_1_0_0_n_n.rhsIdx j q 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_dot_1 (j : S1024x1024.Idx) (q : dot_S1024x512_S1024x512_S1024x1024_1_1_0_0_n_n.contr.Idx) :
    (dot_S1024x512_S1024x512_S1024x1024_1_1_0_0_n_n.rhsIdx j q 1).val = (q ⟨0, by decide⟩).val :=
  dot_S1024x512_S1024x512_S1024x1024_1_1_0_0_n_n.rhsIdx_val_of_single rfl j q

/-- A [1024, 512] by [1024, 512] product contracting the columns of both, into the zero block, at (p, q). -/
theorem rowsProduct_apply (l : FVec Ideal S1024x512 .bf16) (r : FVec Ideal S1024x512 .bf16) (p q : Fin 1024) :
    matmul dot_S1024x512_S1024x512_S1024x1024_1_1_0_0_n_n none l r (constant S1024x1024 .f32 0x00000000#32) (ix2 p q)
      = ∑ k : Fin 512, l (ix2 p k) * r (ix2 q k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_dot_0 _ _
    | ⟨1, _⟩ => exact (lhs_dot_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_dot_0 _ _
    | ⟨1, _⟩ => exact (rhs_dot_1 _ _).trans hk)
  rw [el, er]

/-! ## The payloads at an entry -/

/-- The accumulator's update: the old entry plus the sum over the block's columns of x[p, j] · w[q, j]. -/
theorem update_apply (w : FVec Ideal S1024x512 .bf16) (x : Vec Ideal S1024x512 .f32) (acc : Vec Ideal S1024x1024 .f32)
    (p q : Fin 1024) :
    k0_pay1 (F := Ideal) w x acc (ix2 p q) = acc (ix2 p q) + ∑ j : Fin 512, x (ix2 p j) * w (ix2 q j) := by
  unfold k0_pay1
  rw [shapeCast_self, addf_apply, rowsProduct_apply]
  simp only [truncf_apply, shapeCast_self]

/-- The cleared accumulator is zero everywhere. -/
theorem cleared_apply (p q : Fin 1024) : k0_pay3 (F := Ideal) (ix2 p q) = 0 := by
  unfold k0_pay3
  rw [shapeCast_self, broadcast_apply]
  exact Ideal.ofBits_zero_f32

/-- The epilogue: the accumulator's entry plus the bias of its column. -/
theorem epilogue_apply (acc : Vec Ideal S1024x1024 .f32) (bias : Vec Ideal S1024 .f32) (p q : Fin 1024) :
    k0_pay2 (F := Ideal) acc bias (ix2 p q) = acc (ix2 p q) + bias (ix1 q) := by
  unfold k0_pay2
  rw [addf_apply, broadcastTo_1b_ab_apply, shapeCast_a_1a_apply]

/-- The one-hot matrix at (n, k): the comparison of channel n's low byte with k, converted. -/
theorem hotEntry_apply (codes : Vec Ideal S1024 .i32) (n : Fin 1024) (k : Fin 256) :
    FloatOps.sitofp (F := Ideal) .f32 (BitVec.setWidth 32 (cmpi .eq (broadcastTo S1024x256 (shapeCast S1024x1 (andi codes (broadcast S1024 255#32)) shapeCasts_S1024_S1024x1) broadcasts_S1024x1_S1024x256) (iota .tc S1024x256 32 [1] iota_S1024x256_d1_w32) (ix2 n k)))
      = Cert.Decode.hot (codes (ix1 n)) k := by
  unfold Cert.Decode.hot
  show FloatOps.sitofp (F := Ideal) .f32 (BitVec.setWidth 32 (IntOp.cmpi .eq (broadcastTo S1024x256 (shapeCast S1024x1 (andi codes (broadcast S1024 255#32)) shapeCasts_S1024_S1024x1) broadcasts_S1024x1_S1024x256 (ix2 n k)) (iota .tc S1024x256 32 [1] iota_S1024x256_d1_w32 (ix2 n k)))) = _
  rw [alongRows_apply (by decide), iota_single_apply]
  rfl

/-- The decoded block at (n, i): the decoded weight of the block's channel n at its column i. -/
theorem decoded_apply (codes : Vec Ideal S1024 .i32) (tbl : Vec Ideal S256x512 .f32) (rq : Vec Ideal S1024x512 .i32)
    (rs : Vec Ideal S1024 .f32) (n : Fin 1024) (i : Fin 512) :
    k0_pay4 (F := Ideal) codes tbl rq rs (ix2 n i)
      = Cert.Decode.weight (codes (ix1 n)) (fun k => tbl (ix2 k i)) (rq (ix2 n i)) (rs (ix1 n)) (Ideal.ofBits .f32 0x43000000#32) := by
  unfold k0_pay4
  simp only [truncf_apply, addf_apply, mulf_apply, subf_apply, broadcast_apply, sitofp_apply]
  rw [hotProduct_apply]
  simp only [truncf_apply, sitofp_apply, extui_apply]
  rw [alongRows_apply (by decide), alongRows_apply (by decide)]
  simp only [mulf_apply, sitofp_apply, broadcast_apply, inv_65535, inv_127]
  rw [Finset.sum_congr rfl fun k _ => congrArg (fun z => z * tbl (ix2 k i)) (hotEntry_apply codes n k),
    Cert.Decode.hot_sum (codes (ix1 n)) (fun k => tbl (ix2 k i))]
  rfl

end Cert.KernelIdeal.Payloads

end
-- ==== Proof.Spec.lean ====
/-
  The result, as one function of the argument arrays.

  With  W[n, i]  the decoded weight of channel n at column i, entry (r, n) of the [8192, 4096] product is
  Σ_i x[r, i] · W[n, i]  plus the bias of channel n. The kernel reaches it as eight block sums of 512 columns added in
  order; over the extended reals a sum may be regrouped freely, so the two agree.
-/
import proofs.«408450_j70772471103880_1_alg».proof.Proof.Decode

noncomputable section

open scoped BigOperators

namespace Cert.Decode

open Idealize.ShloMosaic Idealize.ShloMosaic.ValueIdx

/-- Row `1024·g + p` of the activations (wrapped, so that it is defined for every natural `g`). -/
def rowAt (g : ℕ) (p : Fin 1024) : Fin 8192 := ⟨(1024 * g + p.val) % 8192, Nat.mod_lt _ (by norm_num)⟩

theorem rowAt_val (g : ℕ) (hg : g < 8) (p : Fin 1024) : (rowAt g p).val = 1024 * g + p.val := by
  unfold rowAt; show (1024 * g + p.val) % 8192 = _
  exact Nat.mod_eq_of_lt (by have := p.isLt; omega)

/-- Channel `1024·g + q` (wrapped likewise). -/
def chanAt (g : ℕ) (q : Fin 1024) : Fin 4096 := ⟨(1024 * g + q.val) % 4096, Nat.mod_lt _ (by norm_num)⟩

theorem chanAt_val (g : ℕ) (hg : g < 4) (q : Fin 1024) : (chanAt g q).val = 1024 * g + q.val := by
  unfold chanAt; show (1024 * g + q.val) % 4096 = _
  exact Nat.mod_eq_of_lt (by have := q.isLt; omega)

/-- The decoded weight matrix: channel `n`, column `i`. -/
def W (C : (⟨1, ![4096]⟩ : Shape).Idx → BitVec 32) (T : (⟨2, ![256, 4096]⟩ : Shape).Idx → EReal)
    (Q : (⟨2, ![4096, 4096]⟩ : Shape).Idx → BitVec 32) (S : (⟨1, ![4096]⟩ : Shape).Idx → EReal) (o128 : EReal)
    (n i : Fin 4096) : EReal :=
  weight (C (ix1 n)) (fun k => T (ix2 k i)) (Q (ix2 n i)) (S (ix1 n)) o128

/-- Column block `k`'s share of the dot product of activation row `r` with weight row `n`. -/
def share (X : (⟨2, ![8192, 4096]⟩ : Shape).Idx → EReal) (Wt : Fin 4096 → Fin 4096 → EReal) (r : Fin 8192) (n : Fin 4096)
    (k : ℕ) : EReal :=
  ∑ j : Fin 512, X (ix2 r (col k j)) * Wt n (col k j)

/-- The [8192, 4096] result: the eight shares and the bias. -/
def out2 (X : (⟨2, ![8192, 4096]⟩ : Shape).Idx → EReal) (Wt : Fin 4096 → Fin 4096 → EReal)
    (B : (⟨1, ![4096]⟩ : Shape).Idx → EReal) : (⟨2, ![8192, 4096]⟩ : Shape).Idx → EReal :=
  fun y => (∑ k ∈ Finset.range 8, share X Wt (y 0) (y 1) k) + B (ix1 (y 1))

/-- It is the whole dot product plus the bias. -/
theorem out2_apply (X : (⟨2, ![8192, 4096]⟩ : Shape).Idx → EReal) (Wt : Fin 4096 → Fin 4096 → EReal)
    (B : (⟨1, ![4096]⟩ : Shape).Idx → EReal) (r : Fin 8192) (n : Fin 4096) :
    out2 X Wt B (ix2 r n) = (∑ i : Fin 4096, X (ix2 r i) * Wt n i) + B (ix1 n) := by
  unfold out2 share
  rw [sum_blocks (fun i => X (ix2 r i) * Wt n i)]

end Cert.Decode

end
-- ==== Proof.Blocks.lean ====
/-
  What the kernel's windows read at a grid point.

  The grid is 8 row tiles × 4 channel tiles × 8 column blocks, the column block running fastest: point t is row tile
  t / 32, channel tile (t / 8) mod 4, column block t mod 8. The activations' window reads rows 1024·(t / 32) + p and
  columns 512·(t mod 8) + j; the code, scale and bias windows read channels 1024·((t / 8) mod 4) + q; the table's window
  reads every row at the block's columns; the residual's window reads the channel tile's rows at the block's columns.
-/
import proofs.«408450_j70772471103880_1_alg».proof.Proof.Gen.KernelIdeal.Frame
import proofs.«408450_j70772471103880_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.Decode

variable {F : FTy → Type} [FloatOps F] [Named F]
variable (m : (ℓ : Loc nD τ sig) → Buf (Elt F) ℓ)

/-- The windows' block indices at every grid point, decided over the 256 points. -/
theorem idx_facts : ∀ t : Fin cfg0.N,
    win0_0.index t (0 : Fin 2) = t.val / 32 ∧ win0_0.index t (1 : Fin 2) = t.val % 8 ∧
    win0_1.index t (0 : Fin 1) = t.val / 8 % 4 ∧
    win0_2.index t (0 : Fin 2) = 0 ∧ win0_2.index t (1 : Fin 2) = t.val % 8 ∧
    win0_3.index t (0 : Fin 2) = t.val / 8 % 4 ∧ win0_3.index t (1 : Fin 2) = t.val % 8 ∧
    win0_4.index t (0 : Fin 1) = t.val / 8 % 4 ∧ win0_5.index t (0 : Fin 1) = t.val / 8 % 4 ∧
    win0_6.index t (0 : Fin 2) = t.val / 32 ∧ win0_6.index t (1 : Fin 2) = t.val / 8 % 4 :=
  (by decide +kernel : ∀ t : Fin grid0.N, _)

theorem lt_256 (t : Fin cfg0.N) : t.val < 256 := lt_of_lt_of_eq t.isLt (show cfg0.N = 256 from N_0)

/-! ## The blocks and the arrays, at their literal types -/

abbrev xblk (c : Dev nD) (t : Fin cfg0.N) : Vec F S1024x512 .f32 := iblk m c 0 t
abbrev cblk (c : Dev nD) (t : Fin cfg0.N) : Vec F S1024 .i32 := iblk m c 1 t
abbrev tblk (c : Dev nD) (t : Fin cfg0.N) : Vec F S256x512 .f32 := iblk m c 2 t
abbrev qblk (c : Dev nD) (t : Fin cfg0.N) : Vec F S1024x512 .i32 := iblk m c 3 t
abbrev sblk (c : Dev nD) (t : Fin cfg0.N) : Vec F S1024 .f32 := iblk m c 4 t
abbrev bblk (c : Dev nD) (t : Fin cfg0.N) : Vec F S1024 .f32 := iblk m c 5 t

abbrev Xarr (c : Dev nD) : Vec F S8192x4096 .f32 := V m c main_v0
abbrev Carr (c : Dev nD) : Vec F S4096 .i32 := V m c main_arg1
abbrev Tarr (c : Dev nD) : Vec F S256x4096 .f32 := V m c main_arg2
abbrev Qarr (c : Dev nD) : Vec F S4096x4096 .i32 := V m c main_arg3
abbrev Sarr (c : Dev nD) : Vec F S4096 .f32 := V m c main_arg4
abbrev Barr (c : Dev nD) : Vec F S4096 .f32 := V m c main_arg5

/-! ## Each block read at an entry -/

theorem xblk_apply (c : Dev nD) (t : Fin cfg0.N) (p : Fin 1024) (j : Fin 512) :
    xblk m c t (ix2 p j) = Xarr m c (ix2 (rowAt (t.val / 32) p) (col (t.val % 8) j)) := by
  obtain ⟨h0, h1, -⟩ := idx_facts t
  have hN := lt_256 t
  unfold xblk iblk
  rw [View.read_apply]
  show V m c main_v0 (((cfg0.win 0).blk t).view.emb (ix2 p j)) = V m c main_v0 _
  refine congrArg _ (funext fun a => Fin.ext ?_)
  match a with
  | ⟨0, _⟩ => show win0_0.index t 0 * 1024 + 1 * p.val = (rowAt (t.val / 32) p).val
              rw [h0, rowAt_val _ (by omega)]; omega
  | ⟨1, _⟩ => show win0_0.index t 1 * 512 + 1 * j.val = (col (t.val % 8) j).val
              rw [h1, col_val _ (by omega)]; omega

theorem cblk_apply (c : Dev nD) (t : Fin cfg0.N) (q : Fin 1024) :
    cblk m c t (ix1 q) = Carr m c (ix1 (chanAt (t.val / 8 % 4) q)) := by
  obtain ⟨-, -, h0, -⟩ := idx_facts t
  unfold cblk iblk
  rw [View.read_apply]
  show V m c main_arg1 (((cfg0.win 1).blk t).view.emb (ix1 q)) = V m c main_arg1 _
  refine congrArg _ (funext fun a => Fin.ext ?_)
  match a with
  | ⟨0, _⟩ => show win0_1.index t 0 * 1024 + 1 * q.val = (chanAt (t.val / 8 % 4) q).val
              rw [h0, chanAt_val _ (by omega)]; omega

theorem tblk_apply (c : Dev nD) (t : Fin cfg0.N) (k : Fin 256) (j : Fin 512) :
    tblk m c t (ix2 k j) = Tarr m c (ix2 k (col (t.val % 8) j)) := by
  obtain ⟨-, -, -, h0, h1, -⟩ := idx_facts t
  unfold tblk iblk
  rw [View.read_apply]
  show V m c main_arg2 (((cfg0.win 2).blk t).view.emb (ix2 k j)) = V m c main_arg2 _
  refine congrArg _ (funext fun a => Fin.ext ?_)
  match a with
  | ⟨0, _⟩ => show win0_2.index t 0 * 256 + 1 * k.val = k.val
              rw [h0]; omega
  | ⟨1, _⟩ => show win0_2.index t 1 * 512 + 1 * j.val = (col (t.val % 8) j).val
              rw [h1, col_val _ (by omega)]; omega

theorem qblk_apply (c : Dev nD) (t : Fin cfg0.N) (q : Fin 1024) (j : Fin 512) :
    qblk m c t (ix2 q j) = Qarr m c (ix2 (chanAt (t.val / 8 % 4) q) (col (t.val % 8) j)) := by
  obtain ⟨-, -, -, -, -, h0, h1, -⟩ := idx_facts t
  unfold qblk iblk
  rw [View.read_apply]
  show V m c main_arg3 (((cfg0.win 3).blk t).view.emb (ix2 q j)) = V m c main_arg3 _
  refine congrArg _ (funext fun a => Fin.ext ?_)
  match a with
  | ⟨0, _⟩ => show win0_3.index t 0 * 1024 + 1 * q.val = (chanAt (t.val / 8 % 4) q).val
              rw [h0, chanAt_val _ (by omega)]; omega
  | ⟨1, _⟩ => show win0_3.index t 1 * 512 + 1 * j.val = (col (t.val % 8) j).val
              rw [h1, col_val _ (by omega)]; omega

theorem sblk_apply (c : Dev nD) (t : Fin cfg0.N) (q : Fin 1024) :
    sblk m c t (ix1 q) = Sarr m c (ix1 (chanAt (t.val / 8 % 4) q)) := by
  obtain ⟨-, -, -, -, -, -, -, h0, -⟩ := idx_facts t
  unfold sblk iblk
  rw [View.read_apply]
  show V m c main_arg4 (((cfg0.win 4).blk t).view.emb (ix1 q)) = V m c main_arg4 _
  refine congrArg _ (funext fun a => Fin.ext ?_)
  match a with
  | ⟨0, _⟩ => show win0_4.index t 0 * 1024 + 1 * q.val = (chanAt (t.val / 8 % 4) q).val
              rw [h0, chanAt_val _ (by omega)]; omega

theorem bblk_apply (c : Dev nD) (t : Fin cfg0.N) (q : Fin 1024) :
    bblk m c t (ix1 q) = Barr m c (ix1 (chanAt (t.val / 8 % 4) q)) := by
  obtain ⟨-, -, -, -, -, -, -, -, h0, -⟩ := idx_facts t
  unfold bblk iblk
  rw [View.read_apply]
  show V m c main_arg5 (((cfg0.win 5).blk t).view.emb (ix1 q)) = V m c main_arg5 _
  refine congrArg _ (funext fun a => Fin.ext ?_)
  match a with
  | ⟨0, _⟩ => show win0_5.index t 0 * 1024 + 1 * q.val = (chanAt (t.val / 8 % 4) q).val
              rw [h0, chanAt_val _ (by omega)]; omega

end Cert.KernelIdeal.Blocks

end
-- ==== Proof.Accumulate.lean ====
/-
  The accumulator over the grid, and what is written back.

  After the point of column block k of a (row tile, channel tile) pair, entry (p, q) of the scratch accumulator is the
  sum of the shares of column blocks 0 … k of the dot product of activation row 1024·(row tile) + p with weight row
  1024·(channel tile) + q: the first block clears and adds, each later block adds to what the block before left. At the
  last block the output block is that sum plus the bias of the channel. By induction along the points.
-/
import proofs.«408450_j70772471103880_1_alg».proof.Proof.Pieces
import proofs.«408450_j70772471103880_1_alg».proof.Proof.Payloads
import proofs.«408450_j70772471103880_1_alg».proof.Proof.Blocks

set_option maxRecDepth 16384

noncomputable section

open scoped BigOperators
open Idealize.ShloMosaic Idealize.ShloMosaic.TcCoe Idealize.SL.Sem Idealize.ShloMosaic.ValueIdx

namespace Cert.KernelIdeal.Accumulate

open Cert.KernelIdeal Cert.KernelIdeal.Gen Cert.Decode Cert.KernelIdeal.Blocks

variable (m : (ℓ : Loc nD τ sig) → Buf (Elt Ideal) ℓ)

/-- The decoded weight matrix of the arrays as the region finds them. -/
abbrev Wt (c : Dev nD) : Fin 4096 → Fin 4096 → EReal :=
  W (Carr m c) (Tarr m c) (Qarr m c) (Sarr m c) (Ideal.ofBits .f32 0x43000000#32)

/-- The decoded block at point `t` is the weight matrix's tile. -/
theorem wblk_apply (c : Dev nD) (t : Fin cfg0.N) (q : Fin 1024) (j : Fin 512) :
    k0_pay4 (F := Ideal) (cblk m c t) (tblk m c t) (qblk m c t) (sblk m c t) (ix2 q j)
      = Wt m c (chanAt (t.val / 8 % 4) q) (col (t.val % 8) j) := by
  rw [Payloads.decoded_apply]
  unfold Wt W
  simp only [cblk_apply, tblk_apply, qblk_apply, sblk_apply]

/-- One step of the accumulation at point `t`: the accumulator's entry plus the block's share. -/
theorem step_apply (c : Dev nD) (t : Fin cfg0.N) (acc : Vec Ideal S1024x1024 .f32) (p q : Fin 1024) :
    k0_pay1 (F := Ideal) (k0_pay4 (cblk m c t) (tblk m c t) (qblk m c t) (sblk m c t)) (xblk m c t) acc (ix2 p q)
      = acc (ix2 p q) + share (Xarr m c) (Wt m c) (rowAt (t.val / 32) p) (chanAt (t.val / 8 % 4) q) (t.val % 8) := by
  rw [Payloads.update_apply]
  unfold share
  refine congrArg (acc (ix2 p q) + ·) (Finset.sum_congr rfl fun j _ => ?_)
  rw [xblk_apply, wblk_apply]

/-- At a first column block the accumulator ends at that block's share. -/
theorem scratch_first (c : Dev nD) (t : Fin cfg0.N) (h0 : t.val % 8 = 0) (p q : Fin 1024) :
    (outsAt0 m c t.val t.isLt).2 (ix2 p q)
      = share (Xarr m c) (Wt m c) (rowAt (t.val / 32) p) (chanAt (t.val / 8 % 4) q) (t.val % 8) := by
  have h1 : ¬t.val % 8 = 7 := by omega
  rw [outsAt0_A m c t h0 h1]
  dsimp only
  refine (congrFun (Pieces.acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix2 p q)).trans ?_
  refine (step_apply m c t _ p q).trans ?_
  rw [Payloads.cleared_apply, zero_add]

/-- At a later column block it ends at what the block before left plus this block's share. -/
theorem scratch_later (c : Dev nD) (t : Fin cfg0.N) (h0 : ¬t.val % 8 = 0) (p q : Fin 1024) :
    (outsAt0 m c t.val t.isLt).2 (ix2 p q)
      = (outsAt0 m c (t.val - 1) (Nat.lt_of_le_of_lt (Nat.sub_le _ _) t.isLt)).2 (ix2 p q)
        + share (Xarr m c) (Wt m c) (rowAt (t.val / 32) p) (chanAt (t.val / 8 % 4) q) (t.val % 8) := by
  by_cases h1 : t.val % 8 = 7
  · rw [outsAt0_C m c t h0 h1]
    dsimp only
    refine (congrFun (Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) (ix2 p q)).trans ?_
    exact step_apply m c t _ p q
  · rw [outsAt0_B m c t h0 h1]
    dsimp only
    refine (congrFun (Pieces.acc_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) (ix2 p q)).trans ?_
    exact step_apply m c t _ p q

/-- At a last column block the output block is the accumulator plus the bias. -/
theorem out_last (c : Dev nD) (t : Fin cfg0.N) (h1 : t.val % 8 = 7) (p q : Fin 1024) :
    (outsAt0 m c t.val t.isLt).1 (ix2 p q)
      = (outsAt0 m c t.val t.isLt).2 (ix2 p q) + Barr m c (ix1 (chanAt (t.val / 8 % 4) q)) := by
  have h0 : ¬t.val % 8 = 0 := by omega
  rw [outsAt0_C m c t h0 h1]
  dsimp only
  refine (congrFun (Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) (ix2 p q)).trans ?_
  refine (Payloads.epilogue_apply _ _ p q).trans ?_
  refine congrArg₂ (· + ·) ?_ (bblk_apply m c t q)
  exact (congrFun (Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) (ix2 p q)).symm

/-- THE ACCUMULATOR after point `n`: the shares of column blocks `0 … n mod 8`. -/
theorem scratch_eq (c : Dev nD) : ∀ (n : ℕ) (h : n < cfg0.N) (p q : Fin 1024),
    (outsAt0 m c n h).2 (ix2 p q)
      = ∑ k ∈ Finset.range (n % 8 + 1), share (Xarr m c) (Wt m c) (rowAt (n / 32) p) (chanAt (n / 8 % 4) q) k
  | 0, h, p, q => by
    rw [scratch_first m c ⟨0, h⟩ rfl p q]
    show _ = ∑ k ∈ Finset.range 1, _
    rw [Finset.sum_range_one]
    rfl
  | n + 1, h, p, q => by
    by_cases h0 : (n + 1) % 8 = 0
    · rw [scratch_first m c ⟨n + 1, h⟩ h0 p q]
      show share _ _ _ _ ((n + 1) % 8) = _
      rw [h0, Finset.sum_range_one]
    · rw [scratch_later m c ⟨n + 1, h⟩ h0 p q]
      show (outsAt0 m c n _).2 (ix2 p q) + share _ _ _ _ ((n + 1) % 8) = _
      rw [scratch_eq c n (Nat.lt_of_succ_lt h) p q]
      have e1 : (n + 1) / 32 = n / 32 := by omega
      have e2 : (n + 1) / 8 % 4 = n / 8 % 4 := by omega
      have e3 : (n + 1) % 8 = n % 8 + 1 := by omega
      rw [e1, e2, e3, Finset.sum_range_succ _ (n % 8 + 1)]

end Cert.KernelIdeal.Accumulate

end
-- ==== Proof.Final.lean ====
/-
  The output array after the region, and @main's result.

  Only the point of the last column block of a (row tile, channel tile) pair writes its output block back, and the 32
  pairs' blocks tile the [8192, 4096] array; each holds the eight shares and the bias, so the array is the result
  function. @main then views it as [4, 2048, 4096].
-/
import proofs.«408450_j70772471103880_1_alg».proof.Proof.Accumulate
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Decode Cert.KernelIdeal.Blocks Cert.KernelIdeal.Accumulate

variable (m : (ℓ : Loc nD τ sig) → Buf (Elt Ideal) ℓ) (ρ : Dev nD → PrngReg)

/-- The [8192, 4096] array the region leaves: the result function of the arrays as the region finds them. -/
abbrev Y (c : Dev nD) : Buf (Elt Ideal) ((c : Thread nD τ).loc main_v1) := out2 (Xarr m c) (Wt m c) (Barr m c)

/-- What a writing point writes back is its block of the result function. -/
theorem flushed_eq (c : Dev nD) (t : Fin cfg0.N) (hf : (cfg0.win 6).flush t = true) :
    (dats m 0 c).flushed 6 t = ((cfg0.win 6).blk t).view.read (Elt Ideal) (Y m c) := by
  have h7 : t.val % 8 = 7 := (flush0_6 t).mp hf
  obtain ⟨-, -, -, -, -, -, -, -, -, h60, h61⟩ := idx_facts t
  have hN := lt_256 t
  show (cfg0.win 6).cut (grid0.coords t) ((dats m 0 c).after 6 t) = _
  rw [after0_6]
  refine funext fun (y : S1024x1024.Idx) => ?_
  obtain ⟨p, q, rfl⟩ : ∃ (p : Fin 1024) (q : Fin 1024), y = ix2 p q := ⟨y 0, y 1, eq_ix2 y⟩
  show (outsAt0 m c t.val t.isLt).1 (ix2 p q) = Y m c (((cfg0.win 6).blk t).view.emb (ix2 p q))
  have e : ((cfg0.win 6).blk t).view.emb (ix2 p q) = ix2 (rowAt (t.val / 32) p) (chanAt (t.val / 8 % 4) q) :=
    funext fun a => Fin.ext (by
      match a with
      | ⟨0, _⟩ => show win0_6.index t 0 * 1024 + 1 * p.val = (rowAt (t.val / 32) p).val
                  rw [h60, rowAt_val _ (by omega)]; omega
      | ⟨1, _⟩ => show win0_6.index t 1 * 1024 + 1 * q.val = (chanAt (t.val / 8 % 4) q).val
                  rw [h61, chanAt_val _ (by omega)]; omega)
  rw [e, out_last m c t h7 p q, scratch_eq m c t.val t.isLt p q, h7]
  rfl

/-- An index of the array is in point `t`'s block iff each coordinate is in the block's range on its axis. -/
theorem mem_blk (t : Fin cfg0.N) (i : S8192x4096.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v1).slice (win0_6.rect t)).set ↔ _
  rw [View.set_slice_whole, Rect.mem_set_unit]
  exact Iff.rfl

/-- Every index lies in the block of the last point of its (row tile, channel tile) pair. -/
theorem cover (i : S8192x4096.Idx) :
    ∃ t : Fin cfg0.N, (cfg0.win 6).flush t = true ∧ i ∈ ((cfg0.win 6).blk t).view.set := by
  have h0 : (i 0).val < 8192 := (i 0).isLt
  have h1 : (i 1).val < 4096 := (i 1).isLt
  have hN : cfg0.N = 256 := N_0
  obtain ⟨t, ht⟩ : ∃ t : Fin cfg0.N, t.val = ((i 0).val / 1024 * 4 + (i 1).val / 1024) * 8 + 7 :=
    ⟨⟨((i 0).val / 1024 * 4 + (i 1).val / 1024) * 8 + 7, by omega⟩, rfl⟩
  obtain ⟨-, -, -, -, -, -, -, -, -, h60, h61⟩ := idx_facts t
  refine ⟨t, (flush0_6 t).mpr (by omega), ?_⟩
  rw [mem_blk]
  intro a
  match a with
  | ⟨0, _⟩ => show win0_6.index t 0 * 1024 ≤ (i 0).val ∧ (i 0).val < win0_6.index t 0 * 1024 + 1024
              rw [h60]; omega
  | ⟨1, _⟩ => show win0_6.index t 1 * 1024 ≤ (i 1).val ∧ (i 1).val < win0_6.index t 1 * 1024 + 1024
              rw [h61]; omega

/-- THE OUTPUT ARRAY after the region is the result function. -/
theorem final (c : Dev nD) : (dats m 0 c).arrAt 6 cfg0.N = Y m c :=
  (dats m 0 c).arrAt_eq_of_cover 6 (Y m c) (flushed_eq m c) cover

/-- @main's result: the output array viewed as [4, 2048, 4096]. -/
abbrev result (c : Dev nD) : Buf (Elt Ideal) ((c : Thread nD τ).loc main_v2) :=
  shapeCast S4x2048x4096 (Y m c) shapeCasts_S8192x4096_S4x2048x4096

theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  funext i
  show shapeCast S4x2048x4096 (Pipeline.withArrays spec0 c (V0 m c) (fun w => (dats m 0 c).arrAt w cfg0.N)
    (Proc.devRef .tc (Pipeline.arrRef spec0 6))) shapeCasts_S8192x4096_S4x2048x4096 i = _
  rw [Pipeline.withArrays_arr spec0 launch0.win.arr_inj c _ _ 6, final]

/-- The activations as the region finds them: @main's first line views them as [8192, 4096]. -/
theorem Xarr_eq (c : Dev nD) :
    Xarr m c = shapeCast S8192x4096 (m ((c : Thread nD τ).loc main_arg0)) shapeCasts_S4x2048x4096_S8192x4096 := by
  show StableHlo.after hostOps0 (fun b => m (c, b)) (Proc.devRef .tc main_v0) = _
  after_results
  rfl

/-- THE RUN, READ: @main's result is the result function of the arrays as the region finds them, and the arguments end
    as they were. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.Final

end
-- ==== Proof.Consts.lean ====
/-
  The float literals of the reference, as the reals their words encode: 65535, 127 and 1.
-/
import Idealize.ShloMosaic.PureOps.Ideal

noncomputable section

namespace Cert.Consts

open Idealize.ShloMosaic

/-- `65535.0`, the radius' divisor. -/
theorem ofBits_65535 : Ideal.ofBits .f32 0x477FFF00#32 = ((65535 : ℝ) : EReal) := by
  simp [Ideal.ofBits, Ideal.ieee, -EReal.coe_mul]; norm_num

/-- `127.0`, the residual's divisor. -/
theorem ofBits_127 : Ideal.ofBits .f32 0x42FE0000#32 = ((127 : ℝ) : EReal) := by
  simp [Ideal.ofBits, Ideal.ieee, -EReal.coe_mul]; norm_num

/-- `1.0`, the radius' maximum. -/
theorem ofBits_one : Ideal.ofBits .f32 0x3F800000#32 = ((1 : ℝ) : EReal) := by
  simp [Ideal.ofBits, Ideal.ieee, -EReal.coe_mul]; norm_num

end Cert.Consts

end
-- ==== Proof.RefValue.lean ====
/-
  The reference, read at an entry.

  Its decoded weight at (n, i) is the same value as the kernel's: the gather takes the table row the low byte names (the
  index is never negative, so the wrap of negative indices is not taken, and it is below 256, so the gather's clamp does
  nothing), and the two quotients are products with the reciprocals. Its result at (b, s, n) is the sum over the 4096
  columns of x[b, s, i] · W[n, i] plus the bias of channel n.
-/
import proofs.«408450_j70772471103880_1_alg».proof.Proof.Gen.ReferenceIdeal.Read
import proofs.«408450_j70772471103880_1_alg».proof.Proof.Spec
import proofs.«408450_j70772471103880_1_alg».proof.Proof.Consts

noncomputable section

open scoped BigOperators

namespace Cert.ReferenceIdeal.RefValue

open Cert.ReferenceIdeal Cert.ReferenceIdeal.Gen Cert.ReferenceIdeal.Read Cert.Decode
open Idealize.ShloMosaic Idealize.ShloMosaic.ValueIdx

/-- The start index the gather reads for channel `n`: the low byte of its code word. -/
theorem start_apply (x1 : (⟨S4096, .i32⟩ : BufTy).Contents (Elt Ideal)) (n : Fin 4096) :
    val_main_v17 (F := Ideal) x1 (ix2 n (0 : Fin 1)) = IntOp.andi (x1 (ix1 n)) 255#32 := by
  rw [val_main_v17_apply, val_main_v16_apply, val_main_v13_apply, val_main_v1_apply, val_main_v0_apply,
    val_main_c_apply, val_main_v12_apply, val_main_c_3_apply]
  have e : idx_main_v17 (ix2 n (0 : Fin 1)) = ix1 n := funext fun a => by match a with | ⟨0, _⟩ => rfl
  rw [e, low_byte_not_neg, select_zero]

/-- The gathered table at (n, i): row (low byte of channel n's code), column i. -/
theorem gathered_apply (x1 : (⟨S4096, .i32⟩ : BufTy).Contents (Elt Ideal)) (x2 : (⟨S256x4096, .f32⟩ : BufTy).Contents (Elt Ideal))
    (n i : Fin 4096) :
    val_main_v18 (F := Ideal) x1 x2 (ix2 n i) = x2 (ix2 (row (x1 (ix1 n))) i) := by
  unfold val_main_v18 Host.gather
  refine congrArg x2 (funext fun a => Fin.ext ?_)
  match a with
  | ⟨0, _⟩ =>
    show gather_S256x4096_S4096x1_S4096x4096_1_0_n_n_0_1_14096.start (ix2 n i) (val_main_v17 (F := Ideal) x1) 0 + gather_S256x4096_S4096x1_S4096x4096_1_0_n_n_0_1_14096.batchCoord (ix2 n i) 0 + gather_S256x4096_S4096x1_S4096x4096_1_0_n_n_0_1_14096.offCoord (ix2 n i) 0 = (row (x1 (ix1 n))).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x4096_S4096x1_S4096x4096_1_0_n_n_0_1_14096.startIndexMap from List.mem_singleton.mpr rfl)]
    have hsi : gather_S256x4096_S4096x1_S4096x4096_1_0_n_n_0_1_14096.siIdx (ix2 n i) ⟨List.idxOf (0 : Fin 2) gather_S256x4096_S4096x1_S4096x4096_1_0_n_n_0_1_14096.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi, start_apply, low_byte_toInt]
    show min ((row (x1 (ix1 n))).val : ℤ).toNat (256 - 1) = _
    have := (row (x1 (ix1 n))).isLt
    rw [Int.toNat_natCast]
    omega
  | ⟨1, _⟩ =>
    show gather_S256x4096_S4096x1_S4096x4096_1_0_n_n_0_1_14096.start (ix2 n i) (val_main_v17 (F := Ideal) x1) 1 + gather_S256x4096_S4096x1_S4096x4096_1_0_n_n_0_1_14096.batchCoord (ix2 n i) 1 + gather_S256x4096_S4096x1_S4096x4096_1_0_n_n_0_1_14096.offCoord (ix2 n i) 1 = i.val
    rw [GatherDims.batchCoord_eq_zero _ _ _ List.not_mem_nil]
    unfold GatherDims.start
    rw [dif_neg (show ¬ (1 : Fin 2) ∈ gather_S256x4096_S4096x1_S4096x4096_1_0_n_n_0_1_14096.startIndexMap from
      fun h => absurd (List.mem_singleton.mp h) (by decide : ¬ (1 : Fin 2) = 0))]
    unfold GatherDims.offCoord
    rw [dif_pos (show (1 : Fin 2) ∈ gather_S256x4096_S4096x1_S4096x4096_1_0_n_n_0_1_14096.sKept from
      (GatherDims.mem_sKept _ _).mpr ⟨fun h => absurd (List.mem_singleton.mp h) (by decide : ¬ (1 : Fin 2) = 0), List.not_mem_nil⟩)]
    simp only [Nat.zero_add, Nat.add_zero]
    rfl

/-- The reference's decoded weight at (n, i) is the weight matrix's entry. -/
theorem weight_apply (x1 : (⟨S4096, .i32⟩ : BufTy).Contents (Elt Ideal)) (x2 : (⟨S256x4096, .f32⟩ : BufTy).Contents (Elt Ideal))
    (x3 : (⟨S4096x4096, .i32⟩ : BufTy).Contents (Elt Ideal)) (x4 : (⟨S4096, .f32⟩ : BufTy).Contents (Elt Ideal)) (n i : Fin 4096) :
    val_main_v29 (F := Ideal) x1 x2 x3 x4 (ix2 n i) = W x1 x2 x3 x4 (Ideal.ofBits .f32 0x43000000#32) n i := by
  have e19 : idx_main_v19 (ix2 n i) = ix2 n (0 : Fin 1) := funext fun a => by match a with | ⟨0, _⟩ => rfl | ⟨1, _⟩ => rfl
  have e11 : idx_main_v11 (ix2 n (0 : Fin 1)) = ix1 n := funext fun a => by match a with | ⟨0, _⟩ => rfl
  have e27 : idx_main_v27 (ix2 n i) = ix2 n (0 : Fin 1) := funext fun a => by match a with | ⟨0, _⟩ => rfl | ⟨1, _⟩ => rfl
  have e26 : idx_main_v26 (ix2 n (0 : Fin 1)) = ix1 n := funext fun a => by match a with | ⟨0, _⟩ => rfl
  rw [val_main_v29_apply, val_main_v20_apply, val_main_v28_apply, gathered_apply, val_main_v19_apply, e19,
    val_main_v11_apply, e11, val_main_v10_apply, val_main_v8_apply, val_main_v9_apply, val_main_cst_2_apply,
    val_main_v7_apply, val_main_cst_apply, val_main_v6_apply, val_main_v5_apply, val_main_v3_apply, val_main_v2_apply,
    val_main_c_0_apply, val_main_v4_apply, val_main_c_1_apply, val_main_v27_apply, e27, val_main_v26_apply, e26,
    val_main_v25_apply, val_main_v23_apply, val_main_v24_apply, val_main_cst_6_apply, val_main_v21_apply,
    val_main_v22_apply, val_main_cst_5_apply, radiusWord_host]
  simp only [Ideal.ofBits_def, Ideal.mulf_def, Ideal.hostDivf_def, Ideal.addf_def, Ideal.subf_def,
    Cert.Consts.ofBits_65535, Cert.Consts.ofBits_127, Cert.Consts.ofBits_one]
  exact weight_of_quotients (x1 (ix1 n)) (fun k => x2 (ix2 k i)) (x3 (ix2 n i)) (x4 (ix1 n)) _

/-- THE REFERENCE at (b, s, n): the dot product of activation row (b, s) with weight row n, plus the bias. -/
theorem result_apply (x0 : (⟨S4x2048x4096, .f32⟩ : BufTy).Contents (Elt Ideal)) (x1 : (⟨S4096, .i32⟩ : BufTy).Contents (Elt Ideal))
    (x2 : (⟨S256x4096, .f32⟩ : BufTy).Contents (Elt Ideal)) (x3 : (⟨S4096x4096, .i32⟩ : BufTy).Contents (Elt Ideal))
    (x4 x5 : (⟨S4096, .f32⟩ : BufTy).Contents (Elt Ideal)) (b : Fin 4) (s : Fin 2048) (n : Fin 4096) :
    val_main_v33 (F := Ideal) x0 x1 x2 x3 x4 x5 (ix3 b s n)
      = (∑ i : Fin 4096, x0 (ix3 b s i) * W x1 x2 x3 x4 (Ideal.ofBits .f32 0x43000000#32) n i) + x5 (ix1 n) := by
  rw [val_main_v33_apply, val_main_v30_apply, val_main_v32_apply, val_main_v31_apply]
  refine congrArg₂ (· + ·) (Finset.sum_congr rfl fun k _ => congrArg₂ (· * ·) (congrArg x0 ?_) ?_) (congrArg x5 ?_)
  · exact funext fun a => by match a with | ⟨0, _⟩ => rfl | ⟨1, _⟩ => rfl | ⟨2, _⟩ => rfl
  · have e : ridx_main_v30 (ix3 b s n) k = ix2 n k := funext fun a => by match a with | ⟨0, _⟩ => rfl | ⟨1, _⟩ => rfl
    rw [e, weight_apply]
  · exact funext fun a => by match a with | ⟨0, _⟩ => rfl

end Cert.ReferenceIdeal.RefValue

end
-- ==== Proof.Bridge.lean ====
/-
  The two results are one function.

  @main's result at (b, s, n) is the [8192, 4096] array at row 2048·b + s and column n: the eight shares of the dot
  product of that activation row with weight row n, plus the bias; the activation row is x[b, s, ·], since the view as
  [8192, 4096] keeps the row-major order. The reference's result at (b, s, n) is the whole dot product plus the bias.
  The eight shares are the whole sum.
-/
import proofs.«408450_j70772471103880_1_alg».proof.Proof.Final
import proofs.«408450_j70772471103880_1_alg».proof.Proof.RefValue

set_option maxRecDepth 16384

noncomputable section

open scoped BigOperators
open Idealize.ShloMosaic Idealize.ShloMosaic.TcCoe Idealize.SL.Sem Idealize.ShloMosaic.ValueIdx

namespace Cert.KernelIdeal.Bridge

open Cert.KernelIdeal Cert.KernelIdeal.Gen Cert.Decode Cert.KernelIdeal.Blocks Cert.KernelIdeal.Accumulate Cert.KernelIdeal.Final

variable (m : (ℓ : Loc nD τ sig) → Buf (Elt Ideal) ℓ)

/-- The weight matrix of the arrays as the region finds them is the one of the argument arrays: no line of @main before
    the region writes them. -/
theorem Wt_eq (c : Dev nD) :
    Wt m c = W (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (Ideal.ofBits .f32 0x43000000#32) := by
  show W (V m c main_arg1) (V m c main_arg2) (V m c main_arg3) (V m c main_arg4) _ = _
  rw [V_main_arg1, V_main_arg2, V_main_arg3, V_main_arg4]

/-- @main's result is the reference's stage of the argument arrays. -/
theorem result_eq (c : Dev nD) :
    result m c = Cert.ReferenceIdeal.Read.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  funext y
  obtain ⟨b, s, n, rfl⟩ : ∃ (b : Fin 4) (s : Fin 2048) (n : Fin 4096), y = ix3 b s n := ⟨y 0, y 1, y 2, eq_ix3 y⟩
  rw [Cert.ReferenceIdeal.RefValue.result_apply]
  have hr : 2048 * b.val + s.val < 8192 := by have := b.isLt; have := s.isLt; omega
  refine (shapeCast_apply (Y m c) shapeCasts_S8192x4096_S4x2048x4096 (ix3 b s n) (ix2 ⟨2048 * b.val + s.val, hr⟩ n) ?_).trans ?_
  · show (S8192x4096.rowMajor (ix2 ⟨2048 * b.val + s.val, hr⟩ n)).val = (S4x2048x4096.rowMajor (ix3 b s n)).val
    rw [Shape.rowMajor_val_two, Shape.rowMajor_val_three]
    show (2048 * b.val + s.val) * 4096 + n.val = (b.val * 2048 + s.val) * 4096 + n.val
    omega
  · show out2 (Xarr m c) (Wt m c) (Barr m c) (ix2 ⟨2048 * b.val + s.val, hr⟩ n) = _
    rw [out2_apply, Wt_eq]
    refine congrArg₂ (· + ·) (Finset.sum_congr rfl fun i _ => congrArg₂ (· * ·) ?_ rfl) ?_
    · rw [Xarr_eq]
      refine shapeCast_apply _ shapeCasts_S4x2048x4096_S8192x4096 (ix2 ⟨2048 * b.val + s.val, hr⟩ i) (ix3 b s i) ?_
      show (S4x2048x4096.rowMajor (ix3 b s i)).val = (S8192x4096.rowMajor (ix2 ⟨2048 * b.val + s.val, hr⟩ i)).val
      rw [Shape.rowMajor_val_two, Shape.rowMajor_val_three]
      show (b.val * 2048 + s.val) * 4096 + i.val = (2048 * b.val + s.val) * 4096 + i.val
      omega
    · show V m c main_arg5 (ix1 n) = _
      rw [V_main_arg5]

end Cert.KernelIdeal.Bridge

end
-- ==== Proof.lean ====
/-
  A fused decode-and-matmul kernel against its jnp reference, over the extended reals.

  The weights are stored as code words: the low byte of channel n's word names a row of a 256-row table, the next two
  bytes a radius, and a residual matrix of small integers with a per-channel scale refines the row. The decoded weight is
    W[n, i] = table[row n, i] · (radius n · 1/65535) + (q[n, i] − 128) · 1/127 · scale n,
  and the result is  y[b, s, n] = Σ_i x[b, s, i] · W[n, i] + bias n.

  The kernel works on [1024, 1024] output blocks over a grid of 8 row tiles × 4 channel tiles × 8 column blocks. At each
  point it decodes a [1024, 512] tile of W — the table row found as a product with a one-hot matrix —, multiplies the
  activations' tile by it and adds the product to a scratch accumulator, cleared at the first column block; at the last
  column block it stores the accumulator plus the bias. The reference gathers the table rows, writes the two scalings as
  quotients, and contracts all 4096 columns at once.

  The two are the same function on every extended real: the one-hot product is the gathered row (0 · x = 0 and
  1 · x = x), a quotient by a nonzero real is the product with its reciprocal (the kernel's two folded reciprocals are
  read as the exact 1/65535 and 1/127), the products commute, and the eight block sums regroup the whole sum. None of
  these laws needs a finite operand, so the precondition is not used.

  The frames of the two kernel programs and the reference's run are the generated ones.
-/
import proofs.«408450_j70772471103880_1_alg».proof.Defs
import proofs.«408450_j70772471103880_1_alg».proof.Proof.Gen.Kernel
import proofs.«408450_j70772471103880_1_alg».proof.Proof.Gen.Kernel.Frame
import proofs.«408450_j70772471103880_1_alg».proof.Proof.Gen.KernelIdeal
import proofs.«408450_j70772471103880_1_alg».proof.Proof.Gen.KernelIdeal.Frame
import proofs.«408450_j70772471103880_1_alg».proof.Proof.Gen.ReferenceIdeal
import proofs.«408450_j70772471103880_1_alg».proof.Proof.Gen.ReferenceIdeal.Run
import proofs.«408450_j70772471103880_1_alg».proof.Proof.Gen.ReferenceIdeal.Read
import proofs.«408450_j70772471103880_1_alg».proof.Proof.Gen.Pre_finite_inputs
import proofs.«408450_j70772471103880_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two folded reciprocals denote 1/65535 and 1/127, by the certificate's table. -/
theorem preserves : Cert.preserves_Kernel_KernelIdeal :=
  ⟨IdealRules.named_const.statement Cert.KernelIdeal.κ "inv_65535" .f32 0x37800080#32 ((1 / 65535 : ℝ) : EReal) rfl,
    IdealRules.named_const.statement Cert.KernelIdeal.κ "inv_127" .f32 0x3C010204#32 ((1 / 127 : ℝ) : EReal) rfl⟩

/-- Both programs end with the same array: the kernel's result is the reference's stage of the argument arrays. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1,
    (hagree c).2.2.2.2.1, (hagree c).2.2.2.2.2]
  exact (Cert.KernelIdeal.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
